-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096x64 : Shape := ⟨2, ![4096, 64]⟩
abbrev S64x4096 : Shape := ⟨2, ![64, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096x64 .f32) (main_arg3 : FVec F S64x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096x64 : Shape := ⟨2, ![4096, 64]⟩
abbrev S64x4096 : Shape := ⟨2, ![64, 4096]⟩
abbrev S4096 : Shape := ⟨1, ![4096]⟩
abbrev S4096x48 : Shape := ⟨2, ![4096, 48]⟩
abbrev S48x4096 : Shape := ⟨2, ![48, 4096]⟩
abbrev S512x4096 : Shape := ⟨2, ![512, 4096]⟩
abbrev S512x48 : Shape := ⟨2, ![512, 48]⟩
abbrev S512 : Shape := ⟨1, ![512]⟩
abbrev S512x1 : Shape := ⟨2, ![512, 1]⟩
abbrev S1024x4096 : Shape := ⟨2, ![1024, 4096]⟩
abbrev S1024x512 : Shape := ⟨2, ![1024, 512]⟩
abbrev S4096x512 : Shape := ⟨2, ![4096, 512]⟩
abbrev S1x512 : Shape := ⟨2, ![1, 512]⟩

abbrev nBuf : Space → Nat
  | .hbm => 9
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S4096, .f32⟩
  | .hbm, ⟨5, _⟩ => ⟨S4096x48, .f32⟩
  | .hbm, ⟨6, _⟩ => ⟨S48x4096, .f32⟩
  | .hbm, ⟨7, _⟩ => ⟨S4096x4096, .bf16⟩
  | .hbm, ⟨8, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x48, .f32⟩
  | .local _ .vmem, ⟨3, _⟩ => ⟨S512x48, .f32⟩
  | .local _ .vmem, ⟨4, _⟩ => ⟨S48x4096, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .f32⟩
  | .local _ .vmem, ⟨8, _⟩ => ⟨S1024x4096, .f32⟩
  | .local _ .vmem, ⟨9, _⟩ => ⟨S512x4096, .bf16⟩
  | .local _ .vmem, ⟨10, _⟩ => ⟨S512x4096, .bf16⟩
  | .local _ .vmem, ⟨11, _⟩ => ⟨S512, .f32⟩
  | .local _ .vmem, ⟨12, _⟩ => ⟨S512, .f32⟩
  | .local _ .vmem, ⟨13, _⟩ => ⟨S1024x512, .f32⟩
  | .local _ .vmem, ⟨14, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  slices_S4096x64_S4096x48_0_0 : S4096x64.Slices ![0, 0] S4096x48
  slices_S64x4096_S48x4096_0_0 : S64x4096.Slices ![0, 0] S48x4096
  inb_S512x48_S512x48_0_0 : ∀ a, (![0, 0] : Fin 2 → Nat) a + S512x48.size a ≤ S512x48.size a
  h_S512x48 : 0 < S512x48.numel
  shapeCasts_S512x48_S512x48 : S512x48.ShapeCasts S512x48
  inb_S48x4096_S48x4096_0_0 : ∀ a, (![0, 0] : Fin 2 → Nat) a + S48x4096.size a ≤ S48x4096.size a
  h_S48x4096 : 0 < S48x4096.numel
  shapeCasts_S48x4096_S48x4096 : S48x4096.ShapeCasts S48x4096
  inb_S512x4096_S512x4096_0_0 : ∀ a, (![0, 0] : Fin 2 → Nat) a + S512x4096.size a ≤ S512x4096.size a
  h_S512x4096 : 0 < S512x4096.numel
  reduces_S512x4096_S512 : S512x4096.Reduces [1] S512
  shapeCasts_S512_S512x1 : S512.ShapeCasts S512x1
  broadcasts_S512x1_S512x4096 : S512x1.Broadcasts S512x4096
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S1024x4096_S1024x4096_0_0 : ∀ a, (![0, 0] : Fin 2 → Nat) a + S1024x4096.size a ≤ S1024x4096.size a
  h_S1024x4096 : 0 < S1024x4096.numel
  shapeCasts_S512x4096_S512x4096 : S512x4096.ShapeCasts S512x4096
  transposes_S512x4096_p1_0_S4096x512 : S512x4096.Transposes [1, 0] S4096x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S512x48_S48x4096_S512x4096_1_0_0_1_n_n_wf : DotDims.WF S512x48 S48x4096 S512x4096 [1] [0] [0] [1] [] []
  dot_S1024x4096_S4096x512_S1024x512_1_0_0_1_n_n_wf : DotDims.WF S1024x4096 S4096x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x48.size a ≤ S4096x48.size a
  hwx0_1 : ∀ i : grid0.Coords, EltTy.bits .f32 = 32 ∨ (Rect.block (s := S4096x48) S512x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x4096.size a ≤ S48x4096.size a
  hwx0_2 : ∀ i : grid0.Coords, EltTy.bits .f32 = 32 ∨ (Rect.block (s := S48x4096) S48x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S4096x4096.size a
  hwx0_3 : ∀ i : grid0.Coords, EltTy.bits .bf16 = 32 ∨ (Rect.block (s := S4096x4096) S512x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S8192x4096.size a
  hwx1_0 : ∀ i : grid1.Coords, EltTy.bits .f32 = 32 ∨ (Rect.block (s := S8192x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S4096x4096.size a
  hwx1_1 : ∀ i : grid1.Coords, EltTy.bits .bf16 = 32 ∨ (Rect.block (s := S4096x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S4096.size a
  hwx1_2 : ∀ i : grid1.Coords, EltTy.bits .f32 = 32 ∨ (Rect.block (s := S4096) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S8192x4096.size a
  hwx1_3 : ∀ i : grid1.Coords, EltTy.bits .f32 = 32 ∨ (Rect.block (s := S8192x4096) S1024x512.size (cc1_transform_3 i) (hinb1_3 i)).WholeWords (EltTy.packing .f32)

variable [Facts₀]

def dot_S512x48_S48x4096_S512x4096_1_0_0_1_n_n : DotDims S512x48 S48x4096 S512x4096 where
  lhsContracting := [1]
  rhsContracting := [0]
  lhsNonContracting := [0]
  rhsNonContracting := [1]
  lhsBatch := []
  rhsBatch := []
  wf := dot_S512x48_S48x4096_S512x4096_1_0_0_1_n_n_wf
def dot_S1024x4096_S4096x512_S1024x512_1_0_0_1_n_n : DotDims S1024x4096 S4096x512 S1024x512 where
  lhsContracting := [1]
  rhsContracting := [0]
  lhsNonContracting := [0]
  rhsNonContracting := [1]
  lhsBatch := []
  rhsBatch := []
  wf := dot_S1024x4096_S4096x512_S1024x512_1_0_0_1_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S48x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096x64 : Shape := ⟨2, ![4096, 64]⟩
abbrev S64x4096 : Shape := ⟨2, ![64, 4096]⟩
abbrev S4096 : Shape := ⟨1, ![4096]⟩
abbrev S4096x48 : Shape := ⟨2, ![4096, 48]⟩
abbrev S48x4096 : Shape := ⟨2, ![48, 4096]⟩
abbrev S_ : Shape := ⟨0, ![]⟩
abbrev S4096x1 : Shape := ⟨2, ![4096, 1]⟩
abbrev S1x4096 : Shape := ⟨2, ![1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x64, .f32⟩
  | .hbm, ⟨3, _⟩ => ⟨S64x4096, .f32⟩
  | .hbm, ⟨4, _⟩ => ⟨S4096, .f32⟩
  | .hbm, ⟨5, _⟩ => ⟨S4096x48, .f32⟩
  | .hbm, ⟨6, _⟩ => ⟨S48x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .i32⟩
  | .hbm, ⟨32, _⟩ => ⟨S_, .i32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_c_3 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]

class Facts₀ : Prop where
  slices_S4096x64_S4096x48_0_0 : S4096x64.Slices ![0, 0] S4096x48
  slices_S64x4096_S48x4096_0_0 : S64x4096.Slices ![0, 0] S48x4096
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S4096x48_S48x4096_S4096x4096_1_0_0_1_n_n_wf : DotDims.WF S4096x48 S48x4096 S4096x4096 [1] [0] [0] [1] [] []
  dot_S8192x4096_S4096x4096_S8192x4096_1_1_0_0_n_n_wf : DotDims.WF S8192x4096 S4096x4096 S8192x4096 [1] [1] [0] [0] [] []

variable [Facts₀]

def dot_S4096x48_S48x4096_S4096x4096_1_0_0_1_n_n : DotDims S4096x48 S48x4096 S4096x4096 where
  lhsContracting := [1]
  rhsContracting := [0]
  lhsNonContracting := [0]
  rhsNonContracting := [1]
  lhsBatch := []
  rhsBatch := []
  wf := dot_S4096x48_S48x4096_S4096x4096_1_0_0_1_n_n_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Spec.lean ====
/-
  The mathematics both programs compute, stated once over the extended reals with no program in sight.

  A linear layer whose weight is first corrected by a low-rank product and then fake-quantised to four bits, row by
  row. For a row `w` of the corrected weight (4096 entries):
    lo    = the least entry, hi = the greatest entry,
    scale = max (1e-8 as an f32 word) ((hi - lo) / 15),
    zero  = round-half-even (-lo / scale),
    q c   = min 15 (max 0 (round-half-even (w c / scale) + zero)),
    deq c = (q c - zero) * scale.
  The layer's output at (t, o) is the inner product of row t of the activations with the dequantised row o, plus
  the bias at o. Divisions are the extended reals' (`Ideal.div`), the constants are kept as the f32 words both
  programs print, and nothing here needs an entry to be finite: each side is read entry by entry into exactly
  these formulas.
-/
import Idealize.ShloMosaic.PureOps.Ideal
import Idealize.ShloMosaic.PureOps.Ideal.Laws
import Idealize.ShloMosaic.Lib.ValueIdx

noncomputable section

namespace Cert.QuantLinear

open Idealize.ShloMosaic Idealize.ShloMosaic.ValueIdx

/-- The least entry of a row, folded from the f32 word of +infinity. -/
def rowLo {n : Nat} (w : Fin n → EReal) : EReal :=
  (Finset.univ : Finset (Fin n)).fold min (Ideal.ofBits .f32 0x7F800000#32) w

/-- The greatest entry of a row, folded from the f32 word of -infinity. -/
def rowHi {n : Nat} (w : Fin n → EReal) : EReal :=
  (Finset.univ : Finset (Fin n)).fold max (Ideal.ofBits .f32 0xFF800000#32) w

/-- The quantisation step of a row: a fifteenth of its range, kept above the f32 word nearest 1e-8. -/
def rowScale {n : Nat} (w : Fin n → EReal) : EReal :=
  max (Ideal.ofBits .f32 0x322BCC77#32) (Ideal.div (rowHi w - rowLo w) (Ideal.ofBits .f32 0x41700000#32))

/-- The zero point of a row: minus its least entry in steps, rounded half to even. -/
def rowZero {n : Nat} (w : Fin n → EReal) : EReal :=
  Ideal.liftRound Ideal.roundHalfEven (Ideal.div (-(rowLo w)) (rowScale w))

/-- An entry of a row after quantising to the sixteen levels 0 … 15 and mapping back. -/
def rowDeq {n : Nat} (w : Fin n → EReal) (c : Fin n) : EReal :=
  (min (((15#32 : BitVec 32).toInt : ℝ) : EReal)
      (max (((0#32 : BitVec 32).toInt : ℝ) : EReal)
        (Ideal.liftRound Ideal.roundHalfEven (Ideal.div (w c) (rowScale w)) + rowZero w)) - rowZero w) * rowScale w

/-- The corrected weight: the given weight plus the product of the two thin factors (48 inner terms). -/
def merged (W : (⟨2, ![4096, 4096]⟩ : Shape).Idx → EReal) (A : (⟨2, ![4096, 48]⟩ : Shape).Idx → EReal)
    (B : (⟨2, ![48, 4096]⟩ : Shape).Idx → EReal) (r c : Fin 4096) : EReal :=
  W (ix2 r c) + ∑ k : Fin 48, A (ix2 r k) * B (ix2 k c)

/-- The fake-quantised weight, as one function of the three arrays it is made from. -/
def quantWeight (W : (⟨2, ![4096, 4096]⟩ : Shape).Idx → EReal) (A : (⟨2, ![4096, 48]⟩ : Shape).Idx → EReal)
    (B : (⟨2, ![48, 4096]⟩ : Shape).Idx → EReal) : (⟨2, ![4096, 4096]⟩ : Shape).Idx → EReal :=
  fun i => rowDeq (fun c => merged W A B (i 0) c) (i 1)

/-- The layer: activations against the rows of a weight, plus the bias. -/
def linear (X : (⟨2, ![8192, 4096]⟩ : Shape).Idx → EReal) (Q : (⟨2, ![4096, 4096]⟩ : Shape).Idx → EReal)
    (b : (⟨1, ![4096]⟩ : Shape).Idx → EReal) : (⟨2, ![8192, 4096]⟩ : Shape).Idx → EReal :=
  fun i => (∑ k : Fin 4096, X (ix2 (i 0) k) * Q (ix2 (i 1) k)) + b (ix1 (i 1))

/-- Zero minus an extended real is its negation (the kernel writes the zero point's numerator as `0 - lo`, the
    reference as `-lo`). -/
theorem zero_word_sub (x : EReal) : Ideal.ofBits .f32 0x00000000#32 - x = -x := by
  rw [Ideal.ofBits_zero_f32, zero_sub]

end Cert.QuantLinear

end
-- ==== Proof.LibColumn.lean ====
/-
  Rank-2 arrays whose last axis is reduced with `keepdims`: the least and the greatest entry of each row, kept as a
  one-wide column and spread back over the row.
  * a `multi_reduction <minimumf>` over one axis, at the ideal values, as the fold of `min` over that axis's
    coordinates (the library has the `<maximumf>` form);
  * the index a reduction over the LAST axis of an [a, b] array inserts: `(r, k)` over `r`;
  * the keepdims column forms read at an index: [a] → [a, 1] by a shape cast, [a, 1] → [a, b] by a broadcast.
-/
import Idealize.ShloMosaic.Lib.Pipeline.Value
import Idealize.ShloMosaic.Lib.ValueIdx
import Idealize.ShloMosaic.PureOps.Ideal.Laws

noncomputable section

namespace Cert.LibColumn

open Idealize.ShloMosaic Idealize.ShloMosaic.ValueIdx

variable {α : Type}

/-- A float `vector.multi_reduction <minimumf>` over one axis, read at the ideal values: the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Reducing the last axis of an [a, b] array: over row `r`, coordinate `k` is inserted as `(r, k)`. -/
theorem lift_last_ix2 {a b : ℕ} (h : (⟨2, ![a, b]⟩ : Shape).Reduces [(1 : Fin 2)] ⟨1, ![a]⟩) (r : Fin a) (k : Fin b) :
    h.lift (ix1 r) k = ix2 r k := by
  funext c
  apply Fin.ext
  refine (h.lift_val (ix1 r) k c).trans ?_
  match c with
  | ⟨0, _⟩ => rfl
  | ⟨1, _⟩ => rfl

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn

end
-- ==== Proof.QuantBlock.lean ====
/-
  The first kernel's body, read at an entry of the block it stores.

  At a grid point the body holds 512 rows of the weight, the matching 512 rows of the thin left factor and the whole
  thin right factor. It forms the corrected rows (weight plus the 48-term product), takes each row's least and
  greatest entry, and from them the row's step, zero point and dequantised entries. Entry (p, q) of what it stores is
  therefore `rowDeq` of the corrected row p at q: every operation is pointwise except the product (a sum over the 48
  inner coordinates), the two row reductions (folds over the row) and the one-wide columns spread back over the row.
  The last change of float format is the identity at the ideal values.
-/
import proofs.«146528_j27273042330100_1_alg».proof.Proof.Gen.KernelIdeal.Skeleton
import proofs.«146528_j27273042330100_1_alg».proof.Proof.Spec
import proofs.«146528_j27273042330100_1_alg».proof.Proof.LibColumn
import Idealize.ShloMosaic.Lib.ValueIdx
import Idealize.ShloMosaic.Lib.Pipeline.Value
import Idealize.ShloMosaic.PureOps.Ideal.Laws

noncomputable section

namespace Cert.KernelIdeal.QuantBlock

open Cert.KernelIdeal Cert.KernelIdeal.Gen Idealize.ShloMosaic Idealize.ShloMosaic.ValueIdx Cert.QuantLinear Cert.LibColumn

/-! ## The thin product at an entry -/

theorem lhs_0 (i : S512x4096.Idx) (q : dot_S512x48_S48x4096_S512x4096_1_0_0_1_n_n.contr.Idx) :
    (dot_S512x48_S48x4096_S512x4096_1_0_0_1_n_n.lhsIdx i q 0).val = (i 0).val := by
  unfold DotDims.lhsIdx
  rw [dif_neg (show ¬(0 : Fin S512x48.rank) ∈ dot_S512x48_S48x4096_S512x4096_1_0_0_1_n_n.lhsBatch by decide), dif_pos (show (0 : Fin S512x48.rank) ∈ dot_S512x48_S48x4096_S512x4096_1_0_0_1_n_n.lhsNonContracting by decide)]
  rfl
theorem lhs_1 (i : S512x4096.Idx) (q : dot_S512x48_S48x4096_S512x4096_1_0_0_1_n_n.contr.Idx) :
    (dot_S512x48_S48x4096_S512x4096_1_0_0_1_n_n.lhsIdx i q 1).val = (q ⟨0, by decide⟩).val :=
  dot_S512x48_S48x4096_S512x4096_1_0_0_1_n_n.lhsIdx_val_of_single rfl i q
theorem rhs_0 (i : S512x4096.Idx) (q : dot_S512x48_S48x4096_S512x4096_1_0_0_1_n_n.contr.Idx) :
    (dot_S512x48_S48x4096_S512x4096_1_0_0_1_n_n.rhsIdx i q 0).val = (q ⟨0, by decide⟩).val :=
  dot_S512x48_S48x4096_S512x4096_1_0_0_1_n_n.rhsIdx_val_of_single rfl i q
theorem rhs_1 (i : S512x4096.Idx) (q : dot_S512x48_S48x4096_S512x4096_1_0_0_1_n_n.contr.Idx) :
    (dot_S512x48_S48x4096_S512x4096_1_0_0_1_n_n.rhsIdx i q 1).val = (i 1).val := by
  unfold DotDims.rhsIdx
  rw [dif_neg (show ¬(1 : Fin S48x4096.rank) ∈ dot_S512x48_S48x4096_S512x4096_1_0_0_1_n_n.rhsBatch by decide), dif_pos (show (1 : Fin S48x4096.rank) ∈ dot_S512x48_S48x4096_S512x4096_1_0_0_1_n_n.rhsNonContracting by decide)]
  rfl

/-- The [512, 48] by [48, 4096] product into the zero splat, at (p, c): the sum over the 48 inner coordinates. -/
theorem thin_product_apply (x1 : FVec Ideal S512x48 .f32) (x2 : FVec Ideal S48x4096 .f32) (p : Fin 512) (c : Fin 4096) :
    matmul dot_S512x48_S48x4096_S512x4096_1_0_0_1_n_n none x1 x2 (constant (F := Ideal) S512x4096 .f32 0x00000000#32) (ix2 p c)
      = ∑ k : Fin 48, x1 (ix2 p k) * x2 (ix2 k c) := by
  simp only [matmul]
  rw [Ideal.matmul_constant_zero_apply, ← Equiv.sum_comp (contrEquiv1 dot_S512x48_S48x4096_S512x4096_1_0_0_1_n_n 48 rfl rfl).symm]
  refine Finset.sum_congr rfl fun k _ => ?_
  have hk := contrEquiv1_symm_val dot_S512x48_S48x4096_S512x4096_1_0_0_1_n_n 48 rfl rfl k
  have el : dot_S512x48_S48x4096_S512x4096_1_0_0_1_n_n.lhsIdx (ix2 p c) ((contrEquiv1 dot_S512x48_S48x4096_S512x4096_1_0_0_1_n_n 48 rfl rfl).symm k) = ix2 p k := funext fun a => Fin.ext (by
    match a with
    | ⟨0, _⟩ => exact lhs_0 _ _
    | ⟨1, _⟩ => exact (lhs_1 _ _).trans hk)
  have er : dot_S512x48_S48x4096_S512x4096_1_0_0_1_n_n.rhsIdx (ix2 p c) ((contrEquiv1 dot_S512x48_S48x4096_S512x4096_1_0_0_1_n_n 48 rfl rfl).symm k) = ix2 k c := funext fun a => Fin.ext (by
    match a with
    | ⟨0, _⟩ => exact (rhs_0 _ _).trans hk
    | ⟨1, _⟩ => exact rhs_1 _ _)
  rw [el, er]

/-! ## The two row reductions and the columns -/

/-- The least entry of row p of a [512, 4096] block. -/
theorem row_min_apply (w : FVec Ideal S512x4096 .f32) (hφ : FKind.Formats .f32)
    (hacc : (0x7F800000#32 : BitVec FTy.f32.bits) = FKind.minimumf.neutral .f32 hφ) (p : Fin 512) :
    multiReduction .minimumf [1] S512 w 0x7F800000#32 reduces_S512x4096_S512 hφ hacc (ix1 p) = rowLo (fun c => w (ix2 p c)) := by
  refine (multiReduction_minimumf_single w 0x7F800000#32 reduces_S512x4096_S512 hφ hacc (ix1 p)).trans ?_
  unfold rowLo
  exact congrArg (Finset.fold min _ · Finset.univ) (funext fun k => congrArg w (lift_last_ix2 reduces_S512x4096_S512 p k))

/-- The greatest entry of row p of a [512, 4096] block. -/
theorem row_max_apply (w : FVec Ideal S512x4096 .f32) (hφ : FKind.Formats .f32)
    (hacc : (0xFF800000#32 : BitVec FTy.f32.bits) = FKind.maximumf.neutral .f32 hφ) (p : Fin 512) :
    multiReduction .maximumf [1] S512 w 0xFF800000#32 reduces_S512x4096_S512 hφ hacc (ix1 p) = rowHi (fun c => w (ix2 p c)) := by
  refine (Ideal.multiReduction_maximumf_single w 0xFF800000#32 reduces_S512x4096_S512 hφ hacc (ix1 p)).trans ?_
  unfold rowHi
  exact congrArg (Finset.fold max _ · Finset.univ) (funext fun k => congrArg w (lift_last_ix2 reduces_S512x4096_S512 p k))

theorem roundeven_apply {s : Shape} (v : FVec Ideal s .f32) (i : s.Idx) :
    roundeven v i = Ideal.liftRound Ideal.roundHalfEven (v i) := rfl

/-! ## The stored block at an entry -/

/-- The corrected rows the body forms, at an entry. -/
theorem merged_apply (x1 : FVec Ideal S512x48 .f32) (x2 : FVec Ideal S48x4096 .f32) (x0 : FVec Ideal S512x4096 .f32) (p : Fin 512) (c : Fin 4096) :
    (addf x0 (matmul dot_S512x48_S48x4096_S512x4096_1_0_0_1_n_n none (shapeCast S512x48 x1 shapeCasts_S512x48_S512x48)
        (shapeCast S48x4096 x2 shapeCasts_S48x4096_S48x4096) (constant (F := Ideal) S512x4096 .f32 0x00000000#32)) : FVec Ideal S512x4096 .f32) (ix2 p c)
      = x0 (ix2 p c) + ∑ k : Fin 48, x1 (ix2 p k) * x2 (ix2 k c) := by
  rw [addf_apply, shapeCast_self, shapeCast_self, thin_product_apply]

/-- From the rows `w` on: entry (p, q) of the stored block is the dequantised entry q of row p. -/
theorem quant_rows_apply (w : FVec Ideal S512x4096 .f32) (hφ : FKind.Formats .f32)
    (hlo : (0x7F800000#32 : BitVec FTy.f32.bits) = FKind.minimumf.neutral .f32 hφ)
    (hhi : (0xFF800000#32 : BitVec FTy.f32.bits) = FKind.maximumf.neutral .f32 hφ) (p : Fin 512) (q : Fin 4096) :
    (truncf .bf16
      (mulf
        (subf
          (minimumf (broadcast S512x4096 (Scalar.sitofp (F := Ideal) .f32 15#32))
            (maximumf (broadcast S512x4096 (Scalar.sitofp (F := Ideal) .f32 0#32))
              (addf
                (roundeven
                  (divf w
                    (broadcastTo S512x4096
                      (maximumf (broadcast S512x1 (FloatOps.ofBits (F := Ideal) .f32 0x322BCC77#32))
                        (divf
                          (subf
                            (shapeCast S512x1 (multiReduction .maximumf [1] S512 w 0xFF800000#32 reduces_S512x4096_S512 hφ hhi) shapeCasts_S512_S512x1)
                            (shapeCast S512x1 (multiReduction .minimumf [1] S512 w 0x7F800000#32 reduces_S512x4096_S512 hφ hlo) shapeCasts_S512_S512x1))
                          (broadcast S512x1 (FloatOps.ofBits (F := Ideal) .f32 0x41700000#32))))
                      broadcasts_S512x1_S512x4096)))
                (broadcastTo S512x4096
                  (roundeven
                    (divf
                      (subf (broadcast S512x1 (FloatOps.ofBits (F := Ideal) .f32 0x00000000#32))
                        (shapeCast S512x1 (multiReduction .minimumf [1] S512 w 0x7F800000#32 reduces_S512x4096_S512 hφ hlo) shapeCasts_S512_S512x1))
                      (maximumf (broadcast S512x1 (FloatOps.ofBits (F := Ideal) .f32 0x322BCC77#32))
                        (divf
                          (subf
                            (shapeCast S512x1 (multiReduction .maximumf [1] S512 w 0xFF800000#32 reduces_S512x4096_S512 hφ hhi) shapeCasts_S512_S512x1)
                            (shapeCast S512x1 (multiReduction .minimumf [1] S512 w 0x7F800000#32 reduces_S512x4096_S512 hφ hlo) shapeCasts_S512_S512x1))
                          (broadcast S512x1 (FloatOps.ofBits (F := Ideal) .f32 0x41700000#32))))))
                  broadcasts_S512x1_S512x4096))))
          (broadcastTo S512x4096
            (roundeven
              (divf
                (subf (broadcast S512x1 (FloatOps.ofBits (F := Ideal) .f32 0x00000000#32))
                  (shapeCast S512x1 (multiReduction .minimumf [1] S512 w 0x7F800000#32 reduces_S512x4096_S512 hφ hlo) shapeCasts_S512_S512x1))
                (maximumf (broadcast S512x1 (FloatOps.ofBits (F := Ideal) .f32 0x322BCC77#32))
                  (divf
                    (subf
                      (shapeCast S512x1 (multiReduction .maximumf [1] S512 w 0xFF800000#32 reduces_S512x4096_S512 hφ hhi) shapeCasts_S512_S512x1)
                      (shapeCast S512x1 (multiReduction .minimumf [1] S512 w 0x7F800000#32 reduces_S512x4096_S512 hφ hlo) shapeCasts_S512_S512x1))
                    (broadcast S512x1 (FloatOps.ofBits (F := Ideal) .f32 0x41700000#32))))))
            broadcasts_S512x1_S512x4096))
        (broadcastTo S512x4096
          (maximumf (broadcast S512x1 (FloatOps.ofBits (F := Ideal) .f32 0x322BCC77#32))
            (divf
              (subf
                (shapeCast S512x1 (multiReduction .maximumf [1] S512 w 0xFF800000#32 reduces_S512x4096_S512 hφ hhi) shapeCasts_S512_S512x1)
                (shapeCast S512x1 (multiReduction .minimumf [1] S512 w 0x7F800000#32 reduces_S512x4096_S512 hφ hlo) shapeCasts_S512_S512x1))
              (broadcast S512x1 (FloatOps.ofBits (F := Ideal) .f32 0x41700000#32))))
          broadcasts_S512x1_S512x4096))
      bitsLt_bf16_f32 : FVec Ideal S512x4096 .bf16) (ix2 p q)
      = rowDeq (fun c => w (ix2 p c)) q := by
  -- the two one-wide columns: each row's least and greatest entry
  generalize hL : shapeCast S512x1 (multiReduction .minimumf [1] S512 w 0x7F800000#32 reduces_S512x4096_S512 hφ hlo) shapeCasts_S512_S512x1 = lo
  generalize hH : shapeCast S512x1 (multiReduction .maximumf [1] S512 w 0xFF800000#32 reduces_S512x4096_S512 hφ hhi) shapeCasts_S512_S512x1 = hi
  have hlo' : lo (ix2 p (0 : Fin 1)) = rowLo (fun c => w (ix2 p c)) := by
    rw [← hL]; exact (shapeCast_a_a1_apply _ shapeCasts_S512_S512x1 p 0).trans (row_min_apply w hφ hlo p)
  have hhi' : hi (ix2 p (0 : Fin 1)) = rowHi (fun c => w (ix2 p c)) := by
    rw [← hH]; exact (shapeCast_a_a1_apply _ shapeCasts_S512_S512x1 p 0).trans (row_max_apply w hφ hhi p)
  -- the step column
  generalize hS : (maximumf (broadcast S512x1 (FloatOps.ofBits (F := Ideal) .f32 0x322BCC77#32))
      (divf (subf hi lo) (broadcast S512x1 (FloatOps.ofBits (F := Ideal) .f32 0x41700000#32))) : FVec Ideal S512x1 .f32) = sc
  have hsc : sc (ix2 p (0 : Fin 1)) = rowScale (fun c => w (ix2 p c)) := by
    rw [← hS, maximumf_apply, divf_apply, subf_apply, broadcast_apply, broadcast_apply, hlo', hhi']
    rfl
  -- the zero-point column
  generalize hZ : (roundeven (divf (subf (broadcast S512x1 (FloatOps.ofBits (F := Ideal) .f32 0x00000000#32)) lo) sc) : FVec Ideal S512x1 .f32) = zr
  have hzr : zr (ix2 p (0 : Fin 1)) = rowZero (fun c => w (ix2 p c)) := by
    rw [← hZ, roundeven_apply, divf_apply, subf_apply, broadcast_apply, hlo', hsc, Ideal.ofBits_def, zero_word_sub]
    rfl
  -- the pointwise rest
  rw [truncf_apply, mulf_apply, subf_apply, minimumf_apply, maximumf_apply, addf_apply, roundeven_apply, divf_apply,
    broadcast_apply, broadcast_apply, broadcastTo_a1_ab_apply, broadcastTo_a1_ab_apply, hsc, hzr]
  rfl

/-- Entry (p, q) of the block the body stores: the dequantised entry q of the corrected row p. -/
theorem pay_apply (x1 : FVec Ideal S512x48 .f32) (x2 : FVec Ideal S48x4096 .f32) (x0 : FVec Ideal S512x4096 .f32) (p : Fin 512) (q : Fin 4096) :
    k0_pay1 (F := Ideal) x1 x2 x0 (ix2 p q) = rowDeq (fun c => x0 (ix2 p c) + ∑ k : Fin 48, x1 (ix2 p k) * x2 (ix2 k c)) q := by
  unfold k0_pay1
  dsimp only
  refine (quant_rows_apply _ _ _ _ p q).trans ?_
  exact congrArg (rowDeq · q) (funext fun c => merged_apply x1 x2 x0 p c)

end Cert.KernelIdeal.QuantBlock

end
-- ==== Proof.QuantArray.lean ====
/-
  The first region's output array, as one function of the arrays the region is entered with.

  The grid has 8 points. Point i reads rows 512·i … of the weight and of the thin left factor, the whole thin right
  factor, and writes back rows 512·i … of the quantised weight, all 4096 columns. Each block is the restriction of ONE
  whole-array function (`quantWeight`) to its rows — a row's quantisation uses that row alone, and the block holds
  whole rows —, and the 8 row blocks tile the [4096, 4096] array, so after the last write-back it holds that function.
-/
import proofs.«146528_j27273042330100_1_alg».proof.Proof.Gen.KernelIdeal.Frame
import proofs.«146528_j27273042330100_1_alg».proof.Proof.Spec
import proofs.«146528_j27273042330100_1_alg».proof.Proof.QuantBlock
import Idealize.ShloMosaic.Lib.Pipeline.Value
import Idealize.ShloMosaic.Lib.ValueIdx

set_option maxRecDepth 16384

noncomputable section

namespace Cert.KernelIdeal.QuantArray

open Cert.KernelIdeal Cert.KernelIdeal.Gen Idealize.ShloMosaic Idealize.ShloMosaic.TcCoe Idealize.ShloMosaic.ValueIdx
open Idealize.SL.Sem Cert.QuantLinear
open Idealize.ShloMosaic.Pipeline (Dat Cfg Window)

variable (V : (c : Dev nD) → (b : Ref sig .tc) → Buf (Elt Ideal) ((c : Thread nD τ).loc b))

/-- The arrays the region is entered with and the blocks a point reads, each at its literal type. -/
abbrev warr (c : Dev nD) : FVec Ideal S4096x4096 .f32 := V c main_arg1
abbrev larr (c : Dev nD) : FVec Ideal S4096x48 .f32 := V c main_v0
abbrev rarr (c : Dev nD) : FVec Ideal S48x4096 .f32 := V c main_v1
abbrev wblk (c : Dev nD) (t : Fin cfg0.N) : FVec Ideal S512x4096 .f32 := iblk0 V c 0 t
abbrev lblk (c : Dev nD) (t : Fin cfg0.N) : FVec Ideal S512x48 .f32 := iblk0 V c 1 t
abbrev rblk (c : Dev nD) (t : Fin cfg0.N) : FVec Ideal S48x4096 .f32 := iblk0 V c 2 t

theorem hz2 : (![0, 0] : Fin 2 → Nat) = fun _ => 0 := funext fun a => by fin_cases a <;> rfl

/-- How the four windows' block indices sit at a grid point: the weight and the left factor follow the output's row
    block, the right factor is whole, and the row block index stays below 8. -/
theorem index_facts : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (0 : Fin 2) ≤ 7 ∧ win0_3.index t (1 : Fin 2) = 0 :=
  (by decide +kernel : ∀ t : Fin grid0.N, _)

/-- Every one of the 8 row blocks is some point's. -/
theorem index_onto : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of `quantWeight` of the arrays the region is entered with. -/
theorem flushed_eq (c : Dev nD) (t : Fin cfg0.N) :
    (dat0 V c).flushed 3 t = ((cfg0.win 3).blk t).view.read (Elt Ideal)
      (quantWeight (warr V c) (larr V c) (rarr V c)) := by
  show (cfg0.win 3).cut (grid0.coords t) ((dat0 V c).after 3 t) = _
  rw [after0_3]
  unfold out0_3
  rw [View.canon_unit_zero hz2]
  simp only [View.ld_unit_zero (S := S512x48) hz2, View.ld_unit_zero (S := S48x4096) hz2, View.ld_unit_zero (S := S512x4096) hz2]
  obtain ⟨e0, e1, e2, e3, e4, e5, e6, e7⟩ := index_facts t
  funext j
  obtain ⟨p, q, rfl⟩ : ∃ (p : Fin 512) (q : Fin 4096), j = ix2 p q := ⟨j 0, j 1, eq_ix2 j⟩
  have hp : p.val < 512 := p.isLt
  -- the entry's row in the whole array
  let r : Fin 4096 := ⟨win0_3.index t (0 : Fin 2) * 512 + p.val, by omega⟩
  have hemb : ((cfg0.win 3).blk t).view.emb (ix2 p q) = ix2 r q := funext fun a => Fin.ext (by
    match a with
    | ⟨0, _⟩ => show win0_3.index t (0 : Fin 2) * 512 + 1 * p.val = win0_3.index t (0 : Fin 2) * 512 + p.val; omega
    | ⟨1, _⟩ => show win0_3.index t (1 : Fin 2) * 4096 + 1 * q.val = q.val; omega)
  show k0_pay1 (F := Ideal) (lblk V c t) (rblk V c t) (wblk V c t) (ix2 p q)
    = quantWeight (warr V c) (larr V c) (rarr V c) (((cfg0.win 3).blk t).view.emb (ix2 p q))
  rw [hemb]
  refine (QuantBlock.pay_apply _ _ _ p q).trans ?_
  -- each input block is read where the output's rows say
  have hw : ∀ k : Fin 4096, wblk V c t (ix2 p k) = warr V c (ix2 r k) := fun k => by
    show V c main_arg1 (((cfg0.win 0).blk t).view.emb (ix2 p k)) = V c main_arg1 (ix2 r k)
    refine congrArg _ (funext fun a => Fin.ext ?_)
    match a with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  have hl : ∀ k : Fin 48, lblk V c t (ix2 p k) = larr V c (ix2 r k) := fun k => by
    show V c main_v0 (((cfg0.win 1).blk t).view.emb (ix2 p k)) = V c main_v0 (ix2 r k)
    refine congrArg _ (funext fun a => Fin.ext ?_)
    match a with
    | ⟨0, _⟩ => show win0_1.index t (0 : Fin 2) * 512 + 1 * p.val = win0_3.index t (0 : Fin 2) * 512 + p.val; omega
    | ⟨1, _⟩ => show win0_1.index t (1 : Fin 2) * 48 + 1 * k.val = k.val; omega
  have hr : ∀ (k : Fin 48) (d : Fin 4096), rblk V c t (ix2 k d) = rarr V c (ix2 k d) := fun k d => by
    show V c main_v1 (((cfg0.win 2).blk t).view.emb (ix2 k d)) = V c main_v1 (ix2 k d)
    refine congrArg _ (funext fun a => Fin.ext ?_)
    match a with
    | ⟨0, _⟩ => show win0_2.index t (0 : Fin 2) * 48 + 1 * k.val = k.val; omega
    | ⟨1, _⟩ => show win0_2.index t (1 : Fin 2) * 4096 + 1 * d.val = d.val; omega
  show rowDeq (fun d => wblk V c t (ix2 p d) + ∑ k : Fin 48, lblk V c t (ix2 p k) * rblk V c t (ix2 k d)) q
    = rowDeq (fun d => merged (warr V c) (larr V c) (rarr V c) r d) q
  refine congrArg (rowDeq · q) (funext fun d => ?_)
  unfold merged
  rw [hw d]
  exact congrArg (warr V c (ix2 r d) + ·) (Finset.sum_congr rfl fun k _ => by rw [hl k, hr k d])

/-- An index of the array is in point `t`'s block iff each coordinate is in the block's range on its axis. -/
theorem mem_blk (t : Fin cfg0.N) (i : S4096x4096.Idx) :
    i ∈ ((cfg0.win 3).blk t).view.set ↔ ∀ a : Fin 2, win0_3.index t a * S512x4096.size a ≤ (i a).val ∧ (i a).val < win0_3.index t a * S512x4096.size a + S512x4096.size a := by
  show i ∈ ((View.whole main_v2).slice (win0_3.rect t)).set ↔ _
  rw [View.set_slice_whole, Rect.mem_set_unit]
  exact Iff.rfl

/-- The 8 row blocks tile the array: row r is in the block of the point with row block index r / 512. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ := index_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 4096 ≤ (i 1).val ∧ (i 1).val < win0_3.index t (1 : Fin 2) * 4096 + 4096; omega

/-- The quantised weight array after the region: `quantWeight` of the arrays the region is entered with. -/
theorem final (c : Dev nD) : (dat0 V c).arrAt 3 cfg0.N = quantWeight (warr V c) (larr V c) (rarr V c) :=
  (dat0 V c).arrAt_eq_of_cover 3 _ (fun t _ => flushed_eq V c t) (cover)

end Cert.KernelIdeal.QuantArray

end
-- ==== Proof.MatmulBlock.lean ====
/-
  The second kernel's body, read at an entry of the block it stores.

  At a grid point the body holds 1024 rows of the activations, 512 rows of the quantised weight and the matching 512
  bias entries. It multiplies the activation rows by the TRANSPOSE of the weight rows (so the contraction runs over the
  4096 columns of both) and adds the bias along each row. Entry (p, q) of what it stores is the inner product of
  activation row p with weight row q, plus bias entry q. The changes of float format are the identity at the ideal values.
-/
import proofs.«146528_j27273042330100_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MatmulBlock

open Cert.KernelIdeal Cert.KernelIdeal.Gen Idealize.ShloMosaic Idealize.ShloMosaic.ValueIdx

theorem lhs_0 (i : S1024x512.Idx) (q : dot_S1024x4096_S4096x512_S1024x512_1_0_0_1_n_n.contr.Idx) :
    (dot_S1024x4096_S4096x512_S1024x512_1_0_0_1_n_n.lhsIdx i q 0).val = (i 0).val := by
  unfold DotDims.lhsIdx
  rw [dif_neg (show ¬(0 : Fin S1024x4096.rank) ∈ dot_S1024x4096_S4096x512_S1024x512_1_0_0_1_n_n.lhsBatch by decide), dif_pos (show (0 : Fin S1024x4096.rank) ∈ dot_S1024x4096_S4096x512_S1024x512_1_0_0_1_n_n.lhsNonContracting by decide)]
  rfl
theorem lhs_1 (i : S1024x512.Idx) (q : dot_S1024x4096_S4096x512_S1024x512_1_0_0_1_n_n.contr.Idx) :
    (dot_S1024x4096_S4096x512_S1024x512_1_0_0_1_n_n.lhsIdx i q 1).val = (q ⟨0, by decide⟩).val :=
  dot_S1024x4096_S4096x512_S1024x512_1_0_0_1_n_n.lhsIdx_val_of_single rfl i q
theorem rhs_0 (i : S1024x512.Idx) (q : dot_S1024x4096_S4096x512_S1024x512_1_0_0_1_n_n.contr.Idx) :
    (dot_S1024x4096_S4096x512_S1024x512_1_0_0_1_n_n.rhsIdx i q 0).val = (q ⟨0, by decide⟩).val :=
  dot_S1024x4096_S4096x512_S1024x512_1_0_0_1_n_n.rhsIdx_val_of_single rfl i q
theorem rhs_1 (i : S1024x512.Idx) (q : dot_S1024x4096_S4096x512_S1024x512_1_0_0_1_n_n.contr.Idx) :
    (dot_S1024x4096_S4096x512_S1024x512_1_0_0_1_n_n.rhsIdx i q 1).val = (i 1).val := by
  unfold DotDims.rhsIdx
  rw [dif_neg (show ¬(1 : Fin S4096x512.rank) ∈ dot_S1024x4096_S4096x512_S1024x512_1_0_0_1_n_n.rhsBatch by decide), dif_pos (show (1 : Fin S4096x512.rank) ∈ dot_S1024x4096_S4096x512_S1024x512_1_0_0_1_n_n.rhsNonContracting by decide)]
  rfl

/-- The [1024, 4096] by [4096, 512] product into the zero splat, at (p, q): the sum over the 4096 inner coordinates. -/
theorem product_apply (a : FVec Ideal S1024x4096 .bf16) (b : FVec Ideal S4096x512 .bf16) (p : Fin 1024) (q : Fin 512) :
    matmul dot_S1024x4096_S4096x512_S1024x512_1_0_0_1_n_n none a b (constant (F := Ideal) S1024x512 .f32 0x00000000#32) (ix2 p q)
      = ∑ k : Fin 4096, a (ix2 p k) * b (ix2 k q) := by
  simp only [matmul]
  rw [Ideal.matmul_constant_zero_apply, ← Equiv.sum_comp (contrEquiv1 dot_S1024x4096_S4096x512_S1024x512_1_0_0_1_n_n 4096 rfl rfl).symm]
  refine Finset.sum_congr rfl fun k _ => ?_
  have hk := contrEquiv1_symm_val dot_S1024x4096_S4096x512_S1024x512_1_0_0_1_n_n 4096 rfl rfl k
  have el : dot_S1024x4096_S4096x512_S1024x512_1_0_0_1_n_n.lhsIdx (ix2 p q) ((contrEquiv1 dot_S1024x4096_S4096x512_S1024x512_1_0_0_1_n_n 4096 rfl rfl).symm k) = ix2 p k := funext fun c => Fin.ext (by
    match c with
    | ⟨0, _⟩ => exact lhs_0 _ _
    | ⟨1, _⟩ => exact (lhs_1 _ _).trans hk)
  have er : dot_S1024x4096_S4096x512_S1024x512_1_0_0_1_n_n.rhsIdx (ix2 p q) ((contrEquiv1 dot_S1024x4096_S4096x512_S1024x512_1_0_0_1_n_n 4096 rfl rfl).symm k) = ix2 k q := funext fun c => Fin.ext (by
    match c with
    | ⟨0, _⟩ => exact (rhs_0 _ _).trans hk
    | ⟨1, _⟩ => exact rhs_1 _ _)
  rw [el, er]

/-- Entry (p, q) of the block the body stores. -/
theorem pay_apply (x0 : Vec Ideal S1024x4096 .f32) (x1 : Vec Ideal S512x4096 .bf16) (x2 : Vec Ideal S512 .f32) (p : Fin 1024) (q : Fin 512) :
    k1_pay1 (F := Ideal) x0 x1 x2 (ix2 p q) = (∑ k : Fin 4096, x0 (ix2 p k) * x1 (ix2 q k)) + x2 (ix1 q) := by
  unfold k1_pay1
  dsimp only
  rw [addf_apply, product_apply, broadcastTo_1b_ab_apply, shapeCast_a_1a_apply, shapeCast_self]
  refine congrArg (· + x2 (ix1 q)) (Finset.sum_congr rfl fun k _ => ?_)
  rw [truncf_apply, transpose_ix2_apply]

end Cert.KernelIdeal.MatmulBlock

end
-- ==== Proof.LinearArray.lean ====
/-
  The second region's output array, as one function of the arrays the region is entered with.

  The grid is 8 by 8. Point (i, j) reads rows 1024·i … of the activations, rows 512·j … of the weight and entries
  512·j … of the bias, and writes back block (i, j), 1024 by 512, of the output. Each block is the restriction of ONE
  whole-array function (`linear`) to its rectangle, and the 64 rectangles tile the [8192, 4096] output, so after the
  last write-back the array holds that function everywhere.
-/
import proofs.«146528_j27273042330100_1_alg».proof.Proof.Gen.KernelIdeal.Frame
import proofs.«146528_j27273042330100_1_alg».proof.Proof.Spec
import proofs.«146528_j27273042330100_1_alg».proof.Proof.MatmulBlock
import Idealize.ShloMosaic.Lib.Pipeline.Value
import Idealize.ShloMosaic.Lib.ValueIdx

set_option maxRecDepth 16384

noncomputable section

namespace Cert.KernelIdeal.LinearArray

open Cert.KernelIdeal Cert.KernelIdeal.Gen Idealize.ShloMosaic Idealize.ShloMosaic.TcCoe Idealize.ShloMosaic.ValueIdx
open Idealize.SL.Sem Cert.QuantLinear
open Idealize.ShloMosaic.Pipeline (Dat Cfg Window)

variable (V : (c : Dev nD) → (b : Ref sig .tc) → Buf (Elt Ideal) ((c : Thread nD τ).loc b))

/-- The arrays the region is entered with and the blocks a point reads, each at its literal type. -/
abbrev xarr (c : Dev nD) : FVec Ideal S8192x4096 .f32 := V c main_arg0
abbrev qarr (c : Dev nD) : FVec Ideal S4096x4096 .bf16 := V c main_v2
abbrev barr (c : Dev nD) : FVec Ideal S4096 .f32 := V c main_arg4
abbrev xblk (c : Dev nD) (t : Fin cfg1.N) : FVec Ideal S1024x4096 .f32 := iblk1 V c 0 t
abbrev qblk (c : Dev nD) (t : Fin cfg1.N) : FVec Ideal S512x4096 .bf16 := iblk1 V c 1 t
abbrev bblk (c : Dev nD) (t : Fin cfg1.N) : FVec Ideal S512 .f32 := iblk1 V c 2 t

theorem hz2 : (![0, 0] : Fin 2 → Nat) = fun _ => 0 := funext fun a => by fin_cases a <;> rfl
theorem hz1 : (![0] : Fin 1 → Nat) = fun _ => 0 := funext fun a => by fin_cases a; rfl

/-- How the four windows' block indices sit at a grid point: the activations follow the output's row block, the weight
    and the bias its column block, and both block indices stay below 8. -/
theorem index_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 1) = win1_3.index t (1 : Fin 2)
    ∧ win1_3.index t (0 : Fin 2) ≤ 7 ∧ win1_3.index t (1 : Fin 2) ≤ 7 :=
  (by decide +kernel : ∀ t : Fin grid1.N, _)

/-- Every one of the 8 by 8 output blocks is some point's. -/
theorem index_onto : ∀ (q0 : Fin 8) (q1 : Fin 8), ∃ t : Fin cfg1.N, win1_3.index t = ![q0.val, q1.val] :=
  (by decide +kernel : ∀ (q0 : Fin 8) (q1 : Fin 8), ∃ t : Fin grid1.N, win1_3.index t = ![q0.val, q1.val])

/-- What point `t` writes back is block `t` of `linear` of the arrays the region is entered with. -/
theorem flushed_eq (c : Dev nD) (t : Fin cfg1.N) :
    (dat1 V c).flushed 3 t = ((cfg1.win 3).blk t).view.read (Elt Ideal)
      (linear (xarr V c) (qarr V c) (barr V c)) := by
  show (cfg1.win 3).cut (grid1.coords t) ((dat1 V c).after 3 t) = _
  rw [after1_3]
  unfold out1_3
  rw [View.canon_unit_zero hz2]
  simp only [View.ld_unit_zero (S := S1024x4096) hz2, View.ld_unit_zero (S := S512x4096) hz2, View.ld_unit_zero (S := S512) hz1]
  obtain ⟨e0, e1, e2, e3, e4, e5, e6⟩ := index_facts t
  funext j
  obtain ⟨p, q, rfl⟩ : ∃ (p : Fin 1024) (q : Fin 512), j = ix2 p q := ⟨j 0, j 1, eq_ix2 j⟩
  have hp : p.val < 1024 := p.isLt
  have hq : q.val < 512 := q.isLt
  -- the entry's place in the whole output
  let r : Fin 8192 := ⟨win1_3.index t (0 : Fin 2) * 1024 + p.val, by omega⟩
  let o : Fin 4096 := ⟨win1_3.index t (1 : Fin 2) * 512 + q.val, by omega⟩
  have hemb : ((cfg1.win 3).blk t).view.emb (ix2 p q) = ix2 r o := funext fun a => Fin.ext (by
    match a with
    | ⟨0, _⟩ => show win1_3.index t (0 : Fin 2) * 1024 + 1 * p.val = win1_3.index t (0 : Fin 2) * 1024 + p.val; omega
    | ⟨1, _⟩ => show win1_3.index t (1 : Fin 2) * 512 + 1 * q.val = win1_3.index t (1 : Fin 2) * 512 + q.val; omega)
  show k1_pay1 (F := Ideal) (xblk V c t) (qblk V c t) (bblk V c t) (ix2 p q)
    = linear (xarr V c) (qarr V c) (barr V c) (((cfg1.win 3).blk t).view.emb (ix2 p q))
  rw [hemb]
  refine (MatmulBlock.pay_apply _ _ _ p q).trans ?_
  -- each input block is read where the output's rectangle says
  have hx : ∀ k : Fin 4096, xblk V c t (ix2 p k) = xarr V c (ix2 r k) := fun k => by
    show V c main_arg0 (((cfg1.win 0).blk t).view.emb (ix2 p k)) = V c main_arg0 (ix2 r k)
    refine congrArg _ (funext fun a => Fin.ext ?_)
    match a with
    | ⟨0, _⟩ => show win1_0.index t (0 : Fin 2) * 1024 + 1 * p.val = win1_3.index t (0 : Fin 2) * 1024 + p.val; omega
    | ⟨1, _⟩ => show win1_0.index t (1 : Fin 2) * 4096 + 1 * k.val = k.val; omega
  have hwt : ∀ k : Fin 4096, qblk V c t (ix2 q k) = qarr V c (ix2 o k) := fun k => by
    show V c main_v2 (((cfg1.win 1).blk t).view.emb (ix2 q k)) = V c main_v2 (ix2 o k)
    refine congrArg _ (funext fun a => Fin.ext ?_)
    match a with
    | ⟨0, _⟩ => show win1_1.index t (0 : Fin 2) * 512 + 1 * q.val = win1_3.index t (1 : Fin 2) * 512 + q.val; omega
    | ⟨1, _⟩ => show win1_1.index t (1 : Fin 2) * 4096 + 1 * k.val = k.val; omega
  have hb : bblk V c t (ix1 q) = barr V c (ix1 o) := by
    show V c main_arg4 (((cfg1.win 2).blk t).view.emb (ix1 q)) = V c main_arg4 (ix1 o)
    refine congrArg _ (funext fun a => Fin.ext ?_)
    match a with
    | ⟨0, _⟩ => show win1_2.index t (0 : Fin 1) * 512 + 1 * q.val = win1_3.index t (1 : Fin 2) * 512 + q.val; omega
  show (∑ k : Fin 4096, xblk V c t (ix2 p k) * qblk V c t (ix2 q k)) + bblk V c t (ix1 q)
    = (∑ k : Fin 4096, xarr V c (ix2 r k) * qarr V c (ix2 o k)) + barr V c (ix1 o)
  rw [hb]
  exact congrArg (· + barr V c (ix1 o)) (Finset.sum_congr rfl fun k _ => by rw [hx k, hwt k])

/-- An index of the output is in point `t`'s block iff each coordinate is in the block's range on its axis. -/
theorem mem_blk (t : Fin cfg1.N) (i : S8192x4096.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v3).slice (win1_3.rect t)).set ↔ _
  rw [View.set_slice_whole, Rect.mem_set_unit]
  exact Iff.rfl

/-- The 64 blocks tile the output: entry (r, o) is in the block of the point with block indices (r / 1024, o / 512). -/
theorem cover (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht⟩ := index_onto ⟨(i 0).val / 1024, by omega⟩ ⟨(i 1).val / 512, by omega⟩
  have q0 : win1_3.index t (0 : Fin 2) = (i 0).val / 1024 := congrFun ht 0
  have q1 : win1_3.index t (1 : Fin 2) = (i 1).val / 512 := congrFun ht 1
  refine ⟨t, flush1_3 t, ?_⟩
  rw [mem_blk]
  intro a
  match a with
  | ⟨0, _⟩ => show win1_3.index t (0 : Fin 2) * 1024 ≤ (i 0).val ∧ (i 0).val < win1_3.index t (0 : Fin 2) * 1024 + 1024; omega
  | ⟨1, _⟩ => show win1_3.index t (1 : Fin 2) * 512 ≤ (i 1).val ∧ (i 1).val < win1_3.index t (1 : Fin 2) * 512 + 512; omega

/-- The output array after the region: `linear` of the arrays the region is entered with. -/
theorem final (c : Dev nD) : (dat1 V c).arrAt 3 cfg1.N = linear (xarr V c) (qarr V c) (barr V c) :=
  (dat1 V c).arrAt_eq_of_cover 3 _ (fun t _ => flushed_eq V c t) cover

end Cert.KernelIdeal.LinearArray

end
-- ==== Proof.KernelValue.lean ====
/-
  The kernel program's result, as one function of its arguments.

  @main slices the two thin factors out of their arguments on the host, runs the quantising region and then the
  matmul region. The arrays each region is entered with are read back through the boundaries: the first region finds
  the weight as launched and the two host slices; the second finds the activations and the bias as launched and the
  quantised weight the first region left. Composing the two regions' whole-array functions gives the result.
-/
import proofs.«146528_j27273042330100_1_alg».proof.Proof.Gen.KernelIdeal.Frame
import proofs.«146528_j27273042330100_1_alg».proof.Proof.RunNamed
import proofs.«146528_j27273042330100_1_alg».proof.Proof.QuantArray
import proofs.«146528_j27273042330100_1_alg».proof.Proof.LinearArray
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.ShloMosaic.ValueIdx
open Idealize.SL.Sem Cert.QuantLinear

variable (m : (ℓ : Loc nD τ sig) → Buf (Elt Ideal) ℓ) (ρ : Dev nD → PrngReg)

/-- The program's result as a function of the launch memory: the layer applied to the activations, the fake-quantised
    corrected weight and the bias. -/
def G (c : Dev nD) : S8192x4096.Idx → EReal :=
  linear (m ((c.tc : Thread nD τ).loc main_arg0))
    (quantWeight (m ((c.tc : Thread nD τ).loc main_arg1))
      (extractStridedSlice S4096x48 ![0, 0] (m ((c.tc : Thread nD τ).loc main_arg2)) slices_S4096x64_S4096x48_0_0)
      (extractStridedSlice S48x4096 ![0, 0] (m ((c.tc : Thread nD τ).loc main_arg3)) slices_S64x4096_S48x4096_0_0))
    (m ((c.tc : Thread nD τ).loc main_arg4))

/-! ## What the first region is entered with -/

theorem V1_v0 (c : Dev nD) : (V1 m ρ c main_v0 : S4096x48.Idx → EReal)
    = extractStridedSlice S4096x48 ![0, 0] (m ((c.tc : Thread nD τ).loc main_arg2)) slices_S4096x64_S4096x48_0_0 := by
  show StableHlo.after hostOps0 (W0 m ρ c) (Proc.devRef .tc main_v0) = _
  after_results

theorem V1_v1 (c : Dev nD) : (V1 m ρ c main_v1 : S48x4096.Idx → EReal)
    = extractStridedSlice S48x4096 ![0, 0] (m ((c.tc : Thread nD τ).loc main_arg3)) slices_S64x4096_S48x4096_0_0 := by
  show StableHlo.after hostOps0 (W0 m ρ c) (Proc.devRef .tc main_v1) = _
  after_results

theorem V1_arg1 (c : Dev nD) : (V1 m ρ c main_arg1 : S4096x4096.Idx → EReal) = m ((c.tc : Thread nD τ).loc main_arg1) := by
  show StableHlo.after hostOps0 (W0 m ρ c) (Proc.devRef .tc main_arg1) = _
  after_results

theorem V1_arg0 (c : Dev nD) : (V1 m ρ c main_arg0 : S8192x4096.Idx → EReal) = m ((c.tc : Thread nD τ).loc main_arg0) := by
  show StableHlo.after hostOps0 (W0 m ρ c) (Proc.devRef .tc main_arg0) = _
  after_results

theorem V1_arg4 (c : Dev nD) : (V1 m ρ c main_arg4 : S4096.Idx → EReal) = m ((c.tc : Thread nD τ).loc main_arg4) := by
  show StableHlo.after hostOps0 (W0 m ρ c) (Proc.devRef .tc main_arg4) = _
  after_results

/-! ## What the second region is entered with -/

theorem V2_arg0 (c : Dev nD) : (V2 m ρ c main_arg0 : S8192x4096.Idx → EReal) = m ((c.tc : Thread nD τ).loc main_arg0) :=
  (W2_of_ne m ρ c main_arg0 (by decide)).trans (V1_arg0 m ρ c)

theorem V2_arg4 (c : Dev nD) : (V2 m ρ c main_arg4 : S4096.Idx → EReal) = m ((c.tc : Thread nD τ).loc main_arg4) :=
  (W2_of_ne m ρ c main_arg4 (by decide)).trans (V1_arg4 m ρ c)

/-- The quantised weight the first region leaves. -/
theorem V2_v2 (c : Dev nD) : (V2 m ρ c main_v2 : S4096x4096.Idx → EReal)
    = quantWeight (m ((c.tc : Thread nD τ).loc main_arg1))
      (extractStridedSlice S4096x48 ![0, 0] (m ((c.tc : Thread nD τ).loc main_arg2)) slices_S4096x64_S4096x48_0_0)
      (extractStridedSlice S48x4096 ![0, 0] (m ((c.tc : Thread nD τ).loc main_arg3)) slices_S64x4096_S48x4096_0_0) := by
  refine (W2_arr m ρ c 3).trans ((QuantArray.final (V1 m ρ) c).trans ?_)
  show quantWeight (V1 m ρ c main_arg1) (V1 m ρ c main_v0) (V1 m ρ c main_v1) = _
  rw [V1_arg1, V1_v0, V1_v1]

/-! ## The result -/

/-- The result array at the last boundary is `G`. -/
theorem result (c : Dev nD) : W3 m ρ c (Proc.devRef .tc main_v3) = G m c := by
  refine (W3_arr m ρ c 3).trans ((LinearArray.final (V2 m ρ) c).trans ?_)
  show linear (V2 m ρ c main_arg0) (V2 m ρ c main_v2) (V2 m ρ c main_arg4) = _
  rw [V2_arg0, V2_v2, V2_arg4]
  rfl

/-- Every weakly fair execution of @main terminates, nothing faulting, with the result at `G` of the launch memory
    and the arguments as launched. -/
theorem run : θ_run defs (onTc (τ := τ) (main (F := Ideal))) ⟨m, fun _ => 0, ρ⟩ (fun r => ∀ c : Dev nD,
      r.2.mem ((c.tc : Thread nD τ).loc main_v3) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result m ρ c), (h c).2⟩) (GenRun.run_named m ρ)

end Cert.KernelIdeal.KernelValue

end
-- ==== Proof.RefValue.lean ====
/-
  The reference, read entry by entry into the same formulas.

  jnp computes the corrected weight on whole arrays (a 48-term `dot_general` added to the weight), reduces each row to
  its least and greatest entry, forms the step and the zero point as one-wide columns, quantises and maps back, then
  contracts the activations with the result over the columns of both and adds the bias. Read at an entry, each stage
  is the stage before it at one entry, a fold over a row, or a sum over the contracted coordinate; composed, they are
  `quantWeight` and `linear`.
-/
import proofs.«146528_j27273042330100_1_alg».proof.Proof.Gen.ReferenceIdeal.Read
import proofs.«146528_j27273042330100_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.QuantLinear

variable (x0 : (⟨S8192x4096, .f32⟩ : BufTy).Contents (Elt Ideal)) (x1 : (⟨S4096x4096, .f32⟩ : BufTy).Contents (Elt Ideal))
  (x2 : (⟨S4096x64, .f32⟩ : BufTy).Contents (Elt Ideal)) (x3 : (⟨S64x4096, .f32⟩ : BufTy).Contents (Elt Ideal))
  (x4 : (⟨S4096, .f32⟩ : BufTy).Contents (Elt Ideal))

/-- The thin factors the reference slices out of its arguments. -/
abbrev lfac : FVec Ideal S4096x48 .f32 := val_main_v0 (F := Ideal) x2
abbrev rfac : FVec Ideal S48x4096 .f32 := val_main_v1 (F := Ideal) x3
/-- The corrected weight, as the reference's stage. -/
abbrev wstage : FVec Ideal S4096x4096 .f32 := val_main_v3 (F := Ideal) x1 x2 x3

/-- The corrected weight at an entry. -/
theorem merged_apply (r c : Fin 4096) : wstage x1 x2 x3 (ix2 r c) = merged x1 (lfac x2) (rfac x3) r c := by
  show val_main_v3 (F := Ideal) x1 x2 x3 (ix2 r c) = _
  rw [val_main_v3_apply, val_main_v2_apply]
  unfold merged
  refine congrArg (x1 (ix2 r c) + ·) (Finset.sum_congr rfl fun k _ => ?_)
  have el : lidx_main_v2 (ix2 r c) k = ix2 r k := funext fun a => Fin.ext (by
    match a with
    | ⟨0, _⟩ => rfl
    | ⟨1, _⟩ => rfl)
  have er : ridx_main_v2 (ix2 r c) k = ix2 k c := funext fun a => Fin.ext (by
    match a with
    | ⟨0, _⟩ => rfl
    | ⟨1, _⟩ => rfl)
  rw [el, er]

theorem lift_row (h : S4096x4096.Reduces [(1 : Fin 2)] S4096) (r : Fin 4096) (k : Fin 4096) : h.lift (ix1 r) k = ix2 r k := by
  funext c
  apply Fin.ext
  refine (h.lift_val (ix1 r) k c).trans ?_
  match c with
  | ⟨0, _⟩ => rfl
  | ⟨1, _⟩ => rfl

/-- A row's least entry, as the reference reduces it. -/
theorem row_lo_apply (r : Fin 4096) :
    val_main_v4 (F := Ideal) x1 x2 x3 (ix1 r) = rowLo (fun c => wstage x1 x2 x3 (ix2 r c)) := by
  unfold val_main_v4
  refine (Host.reduce_eq_fold_single FloatOps.minimumf _ _ reducesTo_S4096x4096_S4096_d1 (by decide) h_S_ (ix1 r)).trans ?_
  unfold rowLo
  exact congrArg (Finset.fold min _ · Finset.univ) (funext fun k => congrArg (wstage x1 x2 x3) (lift_row _ r k))

/-- A row's greatest entry, as the reference reduces it. -/
theorem row_hi_apply (r : Fin 4096) :
    val_main_v6 (F := Ideal) x1 x2 x3 (ix1 r) = rowHi (fun c => wstage x1 x2 x3 (ix2 r c)) := by
  unfold val_main_v6
  refine (Host.reduce_eq_fold_single FloatOps.maximumf _ _ reducesTo_S4096x4096_S4096_d1 (by decide) h_S_ (ix1 r)).trans ?_
  unfold rowHi
  exact congrArg (Finset.fold max _ · Finset.univ) (funext fun k => congrArg (wstage x1 x2 x3) (lift_row _ r k))

theorem col_idx (r : Fin 4096) (u : Fin 1) : idx_main_v5 (ix2 r u) = ix1 r := funext fun a => Fin.ext (by
  match a with
  | ⟨0, _⟩ => rfl)

theorem row_idx (r c : Fin 4096) : idx_main_v15 (ix2 r c) = ix2 r (0 : Fin 1) := funext fun a => Fin.ext (by
  match a with
  | ⟨0, _⟩ => rfl
  | ⟨1, _⟩ => rfl)

/-- The step column at a row. -/
theorem scale_apply (r : Fin 4096) (u : Fin 1) :
    val_main_v11 (F := Ideal) x1 x2 x3 (ix2 r u) = rowScale (fun c => wstage x1 x2 x3 (ix2 r c)) := by
  rw [val_main_v11_apply, val_main_call0_v1_apply, val_main_call0_v0_apply, val_main_cst_2_apply, val_main_v10_apply,
    val_main_v8_apply, val_main_v7_apply, val_main_v5_apply, val_main_v9_apply, val_main_cst_1_apply]
  rw [show idx_main_v7 (ix2 r u) = ix1 r from col_idx r u, col_idx r u, row_hi_apply, row_lo_apply]
  rfl

/-- The zero-point column at a row. -/
theorem zero_apply (r : Fin 4096) (u : Fin 1) :
    val_main_v14 (F := Ideal) x1 x2 x3 (ix2 r u) = rowZero (fun c => wstage x1 x2 x3 (ix2 r c)) := by
  rw [val_main_v14_apply, val_main_v13_apply, val_main_v12_apply, val_main_v5_apply, col_idx r u, row_lo_apply, scale_apply]
  rfl

/-- The reference's quantised weight is `quantWeight` of the weight and the two thin factors. -/
theorem quant_eq : val_main_v24 (F := Ideal) x1 x2 x3 = quantWeight x1 (lfac x2) (rfac x3) := by
  funext i
  obtain ⟨r, c, rfl⟩ : ∃ (r : Fin 4096) (c : Fin 4096), i = ix2 r c := ⟨i 0, i 1, eq_ix2 i⟩
  rw [val_main_v24_apply, val_main_v22_apply, val_main_v20_apply, val_main_call3_v4_apply, val_main_call3_v3_apply,
    val_main_c_3_apply, val_main_call3_v2_apply, val_main_call3_v1_apply, val_main_call3_v0_apply, val_main_c_apply,
    val_main_v19_apply, val_main_v17_apply, val_main_v16_apply, val_main_v15_apply, val_main_v18_apply,
    val_main_v21_apply, val_main_v23_apply]
  rw [show idx_main_v18 (ix2 r c) = ix2 r (0 : Fin 1) from row_idx r c,
    show idx_main_v21 (ix2 r c) = ix2 r (0 : Fin 1) from row_idx r c,
    show idx_main_v23 (ix2 r c) = ix2 r (0 : Fin 1) from row_idx r c, row_idx r c, scale_apply, zero_apply]
  show _ = rowDeq (fun d => merged x1 (lfac x2) (rfac x3) r d) c
  rw [show (fun d => merged x1 (lfac x2) (rfac x3) r d) = fun d => wstage x1 x2 x3 (ix2 r d) from
    funext fun d => (merged_apply x1 x2 x3 r d).symm]
  rfl

/-- The reference's result is `linear` of the activations, its quantised weight and the bias. -/
theorem result_eq : val_main_v28 (F := Ideal) x0 x1 x2 x3 x4 = linear x0 (quantWeight x1 (lfac x2) (rfac x3)) x4 := by
  funext i
  obtain ⟨r, o, rfl⟩ : ∃ (r : Fin 8192) (o : Fin 4096), i = ix2 r o := ⟨i 0, i 1, eq_ix2 i⟩
  rw [val_main_v28_apply, val_main_v25_apply, val_main_v27_apply, val_main_v26_apply, quant_eq]
  show _ = (∑ k : Fin 4096, x0 (ix2 r k) * quantWeight x1 (lfac x2) (rfac x3) (ix2 o k)) + x4 (ix1 o)
  have eb : idx_main_v26 (idx_main_v27 (ix2 r o)) = ix1 o := funext fun a => Fin.ext (by
    match a with
    | ⟨0, _⟩ => rfl)
  rw [eb]
  refine congrArg (· + x4 (ix1 o)) (Finset.sum_congr rfl fun k _ => ?_)
  have el : lidx_main_v25 (ix2 r o) k = ix2 r k := funext fun a => Fin.ext (by
    match a with
    | ⟨0, _⟩ => rfl
    | ⟨1, _⟩ => rfl)
  have er : ridx_main_v25 (ix2 r o) k = ix2 o k := funext fun a => Fin.ext (by
    match a with
    | ⟨0, _⟩ => rfl
    | ⟨1, _⟩ => rfl)
  rw [el, er]

end Cert.ReferenceIdeal.RefValue

end
-- ==== Proof.lean ====
/-
  A linear layer with a fake-quantised, low-rank-corrected weight: the kernel program against its jnp reference, at the
  ideal values (floats as extended reals, every operation exact, a change of float format the identity).

  Both programs compute, for activations x [8192, 4096], weight W [4096, 4096], thin factors A [4096, 48] and
  B [48, 4096] (the leading 48 columns and rows of the two low-rank arguments) and bias b [4096]:
    M     = W + A · B                                    (48 inner terms per entry),
    per row o of M:  lo, hi = its least and greatest entry,
                     scale  = max (f32 word nearest 1e-8) ((hi - lo) / 15),
                     zero   = round-half-even (-lo / scale),
                     Q o k  = (min 15 (max 0 (round-half-even (M o k / scale) + zero)) - zero) · scale,
    out t o = Σ_k x t k · Q o k + b o.
  The kernel program does it in two pallas_calls — one quantises 512 rows of the weight per grid point, one multiplies a
  1024-row block of activations by the transpose of a 512-row block of the quantised weight and adds the bias — around
  two host slices; the reference does it with whole-array jnp operations. Entry by entry the two are the same formula,
  operation for operation and constant for constant, except that the kernel writes the zero point's numerator as
  `0 - lo` where the reference writes `-lo`, which agree on every extended real. No law used needs an entry to be
  finite, so the precondition is never opened.

  How the proof is cut:
    Spec        the formulas above, with no program in sight;
    LibColumn   a row's least entry as a fold, and the one-wide keepdims columns read at an index;
    QuantBlock  the first kernel's stored block at an entry;   MatmulBlock  the second kernel's;
    QuantArray  the first region's output array as one function of the arrays it is entered with (its 8 row blocks
                tile the array);   LinearArray  the same for the second region (8 by 8 blocks);
    RunNamed    the program's run with its result array named;
    KernelValue the two regions composed, through the host slices, into one function of the arguments;
    RefValue    the reference's stages read entry by entry into the same formulas.
  The frames of the two kernel programs are the generated ones; the reference's frame is its generated run with the
  result dropped; the idealisation rewrote nothing, so `preserves` has nothing to state.
-/
import proofs.«146528_j27273042330100_1_alg».proof.Defs
import proofs.«146528_j27273042330100_1_alg».proof.Proof.Gen.Kernel
import proofs.«146528_j27273042330100_1_alg».proof.Proof.Gen.Kernel.Skeleton
import proofs.«146528_j27273042330100_1_alg».proof.Proof.Gen.Kernel.Launch
import proofs.«146528_j27273042330100_1_alg».proof.Proof.Gen.Kernel.Points
import proofs.«146528_j27273042330100_1_alg».proof.Proof.Gen.Kernel.Frame
import proofs.«146528_j27273042330100_1_alg».proof.Proof.Gen.KernelIdeal
import proofs.«146528_j27273042330100_1_alg».proof.Proof.Gen.KernelIdeal.Skeleton
import proofs.«146528_j27273042330100_1_alg».proof.Proof.Gen.KernelIdeal.Launch
import proofs.«146528_j27273042330100_1_alg».proof.Proof.Gen.KernelIdeal.Points
import proofs.«146528_j27273042330100_1_alg».proof.Proof.Gen.KernelIdeal.Frame
import proofs.«146528_j27273042330100_1_alg».proof.Proof.Gen.ReferenceIdeal
import proofs.«146528_j27273042330100_1_alg».proof.Proof.Gen.Pre_finite_inputs
import proofs.«146528_j27273042330100_1_alg».proof.Proof.Gen.ReferenceIdeal.Run
import proofs.«146528_j27273042330100_1_alg».proof.Proof.Gen.ReferenceIdeal.Read
import proofs.«146528_j27273042330100_1_alg».proof.Proof.KernelValue
import proofs.«146528_j27273042330100_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at the layer's output:
    the kernel program by its two regions composed, the reference by its stages read entry by entry. -/
theorem algebraic : Cert.algebraic_KernelIdeal_ReferenceIdeal := by
  intro m ρ m' ρ' _ hagree
  refine ⟨fun c => Cert.KernelIdeal.KernelValue.G m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq]
  obtain ⟨h0, h1, h2, h3, h4⟩ := hagree c
  rw [h0, h1, h2, h3, h4]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
